-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S700000x1, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S700000x1, .f32⟩
  | .hbm, ⟨67, _⟩ => ⟨S_, .i32⟩
  | .hbm, ⟨68, _⟩ => ⟨S700000, .i32⟩
  | .hbm, ⟨69, _⟩ => ⟨S700000, .i1⟩
  | .hbm, ⟨70, _⟩ => ⟨S_, .i32⟩
  | .hbm, ⟨71, _⟩ => ⟨S700000, .i32⟩
  | .hbm, ⟨72, _⟩ => ⟨S700000, .i32⟩
  | .hbm, ⟨73, _⟩ => ⟨S700000, .i32⟩
  | .hbm, ⟨74, _⟩ => ⟨S700000x1, .i32⟩
  | .hbm, ⟨75, _⟩ => ⟨S700000x128, .f32⟩
  | .hbm, ⟨76, _⟩ => ⟨S700000x128, .f32⟩
  | .hbm, ⟨77, _⟩ => ⟨S700000x128, .f32⟩
  | .hbm, ⟨78, _⟩ => ⟨S_, .f32⟩
  | .hbm, ⟨79, _⟩ => ⟨S100000x128, .f32⟩
  | .hbm, ⟨80, _⟩ => ⟨S700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S700000x1, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S700000x1, .f32⟩
  | .hbm, ⟨71, _⟩ => ⟨S_, .i32⟩
  | .hbm, ⟨72, _⟩ => ⟨S700000, .i32⟩
  | .hbm, ⟨73, _⟩ => ⟨S700000, .i1⟩
  | .hbm, ⟨74, _⟩ => ⟨S_, .i32⟩
  | .hbm, ⟨75, _⟩ => ⟨S700000, .i32⟩
  | .hbm, ⟨76, _⟩ => ⟨S700000, .i32⟩
  | .hbm, ⟨77, _⟩ => ⟨S700000, .i32⟩
  | .hbm, ⟨78, _⟩ => ⟨S700000x1, .i32⟩
  | .hbm, ⟨79, _⟩ => ⟨S700000x128, .f32⟩
  | .hbm, ⟨80, _⟩ => ⟨S700000x128, .f32⟩
  | .hbm, ⟨81, _⟩ => ⟨S700000x128, .f32⟩
  | .hbm, ⟨82, _⟩ => ⟨S_, .f32⟩
  | .hbm, ⟨83, _⟩ => ⟨S100000x128, .f32⟩
  | .hbm, ⟨84, _⟩ => ⟨S700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
/-
  What the kernel's four regions compute, as whole-array functions over the extended reals.

  A node-feature array has 100000 rows of 128 numbers. A dense transform multiplies every row by a 128 × 128 weight
  matrix: entry (r, j) of the result is the sum over k of x (r, k) · w (k, j). A bias stage adds one row of 128
  numbers to every row of the array, entry by entry; the first layer then takes the maximum with zero.
-/
import Idealize.ShloMosaic.Lib.ValueIdx
import Idealize.ShloMosaic.PureOps.Ideal

noncomputable section

namespace Cert.Spec

open Idealize.ShloMosaic Idealize.ShloMosaic.ValueIdx

/-- A node-feature array: 100000 rows of 128 numbers. -/
abbrev Rows : Shape := ⟨2, ![100000, 128]⟩
/-- A weight matrix. -/
abbrev Sq : Shape := ⟨2, ![128, 128]⟩
/-- A bias laid out as one row. -/
abbrev Row1 : Shape := ⟨2, ![1, 128]⟩

/-- A bias as the program's arguments carry it: 128 numbers. -/
abbrev Vec128 : Shape := ⟨1, ![128]⟩

/-- A bias vector laid out as one row. -/
def rowOf (b : FVec Ideal Vec128 .f32) : FVec Ideal Row1 .f32 := fun i => b (ix1 (i 1))

theorem rowOf_apply (b : FVec Ideal Vec128 .f32) (j : Fin 128) : rowOf b (ix2 (0 : Fin 1) j) = b (ix1 j) := rfl

/-- Rows times a weight matrix: entry (r, j) is the sum over k of x (r, k) · w (k, j). -/
def mm (x : FVec Ideal Rows .f32) (w : FVec Ideal Sq .f32) : FVec Ideal Rows .f32 :=
  fun i => ∑ k : Fin 128, x (ix2 (i 0) k) * w (ix2 k (i 1))

theorem mm_apply (x : FVec Ideal Rows .f32) (w : FVec Ideal Sq .f32) (r : Fin 100000) (j : Fin 128) :
    mm x w (ix2 r j) = ∑ k : Fin 128, x (ix2 r k) * w (ix2 k j) := rfl

/-- A bias row added to every row. -/
def bias (x : FVec Ideal Rows .f32) (b : FVec Ideal Row1 .f32) : FVec Ideal Rows .f32 :=
  fun i => x i + b (ix2 (0 : Fin 1) (i 1))

theorem bias_apply (x : FVec Ideal Rows .f32) (b : FVec Ideal Row1 .f32) (r : Fin 100000) (j : Fin 128) :
    bias x b (ix2 r j) = x (ix2 r j) + b (ix2 (0 : Fin 1) j) := rfl

/-- A bias row added to every row, then the maximum with zero. -/
def biasRelu (x : FVec Ideal Rows .f32) (b : FVec Ideal Row1 .f32) : FVec Ideal Rows .f32 :=
  fun i => max (x i + b (ix2 (0 : Fin 1) (i 1))) 0

theorem biasRelu_apply (x : FVec Ideal Rows .f32) (b : FVec Ideal Row1 .f32) (r : Fin 100000) (j : Fin 128) :
    biasRelu x b (ix2 r j) = max (x (ix2 r j) + b (ix2 (0 : Fin 1) j)) 0 := rfl

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Dense1.lean ====
/-
  The first dense transform, as the array it leaves.

  The region walks the 100000 rows in 20 tiles of 5000. At tile t its body multiplies rows t·5000 … t·5000 + 4999 of the
  input by the whole 128 × 128 weight matrix and writes the product over the same rows of the output. A tile's rows
  are rows of the whole product and the tiles cover every row, so the output array ends as the product of the whole
  input with the matrix.
-/
import proofs.«112498_j39213051412908_1_alg».proof.Proof.Gen.KernelIdeal.Frame
import proofs.«112498_j39213051412908_1_alg».proof.Proof.Spec
import proofs.«112498_j39213051412908_1_alg».proof.Proof.LibDense
import Idealize.ShloMosaic.Lib.Pipeline.Value

set_option maxRecDepth 16384

noncomputable section

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input array and its weight matrix, as the region finds them. -/
abbrev xin (c : Dev nD) : FVec Ideal S100000x128 .f32 := V c main_arg0
abbrev wts (c : Dev nD) : FVec Ideal S128x128 .f32 := V c main_arg2

/-- A tile's one store starts at its origin. -/
theorem origin : (![0, 0] : Fin 2 → Nat) = fun _ => 0 := funext fun a => by fin_cases a <;> rfl

/-- The tile product's dimension numbers are the rows-by-columns ones. -/
theorem dot_plain : dot_S5000x128_S128x128_S5000x128_1_0_0_1_n_n = DotDims.plain 5000 128 128 := rfl

/-- The body's product of a tile of rows with the weights, at row `p` and column `q` of the tile: the sum over `k` of
    x (p, k) · w (k, q). Rounding the operands to bf16 is the identity over the extended reals, and the accumulator starts
    at zero. -/
theorem tile_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  have h := Cert.LibDense.matmul_plain_zero_apply (M := 5000) (K := 128) (N := 128) none
    (truncf (F := Ideal) .bf16 (x : FVec Ideal S5000x128 .f32) bitsLt_bf16_f32)
    (truncf (F := Ideal) .bf16 (w : FVec Ideal S128x128 .f32) bitsLt_bf16_f32) p q
  rw [← dot_plain] at h
  exact h

/-- The printed index maps over the grid: tile `t` of the input and tile `t` of the output start at the same row block
    and at column 0; the weights' one block is the whole matrix. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every one of the 20 row blocks is some grid point's output block. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of the whole product: row `p` of the tile is row t·5000 + p of the
    input, multiplied by the whole weight matrix. -/
theorem tile_is_rows (c : Dev nD) (t : Fin cfg0.N) :
    (dat0 V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Spec.mm (V c main_arg0) (V c main_arg2) (((cfg0.win 2).blk t).view.emb (ix2 p q))
  rw [tile_apply]
  show ∑ k : Fin 128, xin V c (((cfg0.win 0).blk t).view.emb (ix2 p k)) * wts V c (((cfg0.win 1).blk t).view.emb (ix2 k q))
    = ∑ k : Fin 128, xin V c (ix2 ((((cfg0.win 2).blk t).view.emb (ix2 p q)) 0) k)
        * wts V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b => a * b) (congrArg (xin V c) h0) (congrArg (wts V c) h1)

/-- An index of the output array is in point `t`'s block iff each coordinate is in the block's range on its axis. -/
theorem mem_tile (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row of the output lies in the block of the grid point whose number is the row divided by 5000. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole input times the weight matrix, whatever the region found in its
    arrays (`V`). -/
theorem final (c : Dev nD) : (dat0 V c).arrAt 2 cfg0.N = Cert.Spec.mm (V c main_arg0) (V c main_arg2) :=
  (dat0 V c).arrAt_eq_of_cover 2 _ (fun t _ => tile_is_rows V c t) rows_covered

end Cert.KernelIdeal.Dense1

end
-- ==== Proof.Dense2.lean ====
/-
  The second dense transform, as the array it leaves.

  The region walks the 100000 rows of the hidden features in 20 tiles of 5000. At tile t its body multiplies rows
  t·5000 … t·5000 + 4999 by the whole 128 × 128 weight matrix of the second layer and writes the product over the same
  rows of the output. A tile's rows are rows of the whole product and the tiles cover every row, so the output array
  ends as the product of the whole hidden array with the matrix.
-/
import proofs.«112498_j39213051412908_1_alg».proof.Proof.Gen.KernelIdeal.Frame
import proofs.«112498_j39213051412908_1_alg».proof.Proof.Spec
import proofs.«112498_j39213051412908_1_alg».proof.Proof.LibDense
import Idealize.ShloMosaic.Lib.Pipeline.Value

set_option maxRecDepth 16384

noncomputable section

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input array and its weight matrix, as the region finds them. -/
abbrev xin (c : Dev nD) : FVec Ideal S100000x128 .f32 := V c main_v45
abbrev wts (c : Dev nD) : FVec Ideal S128x128 .f32 := V c main_arg4

/-- A tile's one store starts at its origin. -/
theorem origin : (![0, 0] : Fin 2 → Nat) = fun _ => 0 := funext fun a => by fin_cases a <;> rfl

/-- The tile product's dimension numbers are the rows-by-columns ones. -/
theorem dot_plain : dot_S5000x128_S128x128_S5000x128_1_0_0_1_n_n = DotDims.plain 5000 128 128 := rfl

/-- The body's product of a tile of rows with the weights, at row `p` and column `q` of the tile: the sum over `k` of
    x (p, k) · w (k, q). The cast of the tile to the shape it already has and the rounding of the operands to bf16 are the identity over
    the extended reals, and the accumulator starts at zero. -/
theorem tile_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  have h := Cert.LibDense.matmul_plain_zero_apply (M := 5000) (K := 128) (N := 128) none
    (truncf (F := Ideal) .bf16 (shapeCast S5000x128 (x : FVec Ideal S5000x128 .f32) shapeCasts_S5000x128_S5000x128) bitsLt_bf16_f32)
    (truncf (F := Ideal) .bf16 (w : FVec Ideal S128x128 .f32) bitsLt_bf16_f32) p q
  rw [← dot_plain] at h
  refine h.trans (Finset.sum_congr rfl fun k _ => ?_)
  rw [truncf_apply, truncf_apply, shapeCast_self]

/-- The printed index maps over the grid: tile `t` of the input and tile `t` of the output start at the same row block
    and at column 0; the weights' one block is the whole matrix. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every one of the 20 row blocks is some grid point's output block. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What grid point `t` writes back is block `t` of the whole product: row `p` of the tile is row t·5000 + p of the
    input, multiplied by the whole weight matrix. -/
theorem tile_is_rows (c : Dev nD) (t : Fin cfg2.N) :
    (dat2 V c).flushed 2 t
      = ((cfg2.win 2).blk t).view.read (Elt Ideal) (Cert.Spec.mm (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = Cert.Spec.mm (V c main_v45) (V c main_arg4) (((cfg2.win 2).blk t).view.emb (ix2 p q))
  rw [tile_apply]
  show ∑ k : Fin 128, xin V c (((cfg2.win 0).blk t).view.emb (ix2 p k)) * wts V c (((cfg2.win 1).blk t).view.emb (ix2 k q))
    = ∑ k : Fin 128, xin V c (ix2 ((((cfg2.win 2).blk t).view.emb (ix2 p q)) 0) k)
        * wts V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (fun a b => a * b) (congrArg (xin V c) h0) (congrArg (wts V c) h1)

/-- An index of the output array is in point `t`'s block iff each coordinate is in the block's range on its axis. -/
theorem mem_tile (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- Every row of the output lies in the block of the grid point whose number is the row divided by 5000. -/
theorem rows_covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole input times the weight matrix, whatever the region found in its
    arrays (`V`). -/
theorem final (c : Dev nD) : (dat2 V c).arrAt 2 cfg2.N = Cert.Spec.mm (V c main_v45) (V c main_arg4) :=
  (dat2 V c).arrAt_eq_of_cover 2 _ (fun t _ => tile_is_rows V c t) rows_covered

end Cert.KernelIdeal.Dense2

end
-- ==== Proof.Bias1.lean ====
/-
  The first layer's bias and ReLU stage, as the array it leaves.

  The region walks the 100000 rows in 20 tiles of 5000. At tile t its body adds the bias row to each of the rows
  t·5000 … t·5000 + 4999 of the aggregated array, takes the maximum with zero, and writes the result over the same rows
  of the output. The tiles cover every row, so the output ends as the whole array with the bias added to every row
  and the maximum with zero taken.
-/
import proofs.«112498_j39213051412908_1_alg».proof.Proof.Gen.KernelIdeal.Frame
import proofs.«112498_j39213051412908_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Bias1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input array and its one-row bias, as the region finds them. -/
abbrev xin (c : Dev nD) : FVec Ideal S100000x128 .f32 := V c main_v43
abbrev brow (c : Dev nD) : FVec Ideal S1x128 .f32 := V c main_v44

/-- A tile's one store starts at its origin. -/
theorem origin : (![0, 0] : Fin 2 → Nat) = fun _ => 0 := funext fun a => by fin_cases a <;> rfl

/-- The body on a tile of rows and the one-row bias, at row `p` and column `q` of the tile: the entry plus the bias
    entry of its column, then the maximum with zero. The two casts are to the shapes the values already have. -/
theorem tile_apply (x : Vec Ideal S5000x128 .f32) (b : Vec Ideal S1x128 .f32) (p : Fin 5000) (q : Fin 128) :
    k1_pay1 (F := Ideal) x b (ix2 p q) = max (x (ix2 p q) + b (ix2 (0 : Fin 1) q)) 0 := by
  unfold k1_pay1
  show max (shapeCast S5000x128 x shapeCasts_S5000x128_S5000x128 (ix2 p q)
      + broadcastTo S5000x128 (shapeCast S1x128 b shapeCasts_S1x128_S1x128) broadcasts_S1x128_S5000x128 (ix2 p q))
    (Ideal.ofBits .f32 0x00000000#32) = _
  rw [shapeCast_self, shapeCast_self, broadcastTo_1b_ab_apply, Ideal.ofBits_zero_f32]

/-- The printed index maps over the grid: tile `t` of the input and tile `t` of the output start at the same row block
    and at column 0; the bias row's one block is the whole row. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every one of the 20 row blocks is some grid point's output block. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What grid point `t` writes back is block `t` of the whole array with the bias row added to every row and the maximum with zero taken:
    row `p` of the tile is row t·5000 + p of the input. -/
theorem tile_is_rows (c : Dev nD) (t : Fin cfg1.N) :
    (dat1 V c).flushed 2 t
      = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Spec.biasRelu (V c main_v43) (V c main_v44) (((cfg1.win 2).blk t).view.emb (ix2 p q))
  rw [tile_apply]
  show max (xin V c (((cfg1.win 0).blk t).view.emb (ix2 p q)) + brow V c (((cfg1.win 1).blk t).view.emb (ix2 (0 : Fin 1) q))) 0
    = max (xin V c (((cfg1.win 2).blk t).view.emb (ix2 p q))
        + brow V c (ix2 (0 : Fin 1) ((((cfg1.win 2).blk t).view.emb (ix2 p q)) 1))) 0
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  exact congrArg₂ (fun a b => max (a + b) 0) (congrArg (xin V c) h0) (congrArg (brow V c) h1)

/-- An index of the output array is in point `t`'s block iff each coordinate is in the block's range on its axis. -/
theorem mem_tile (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every row of the output lies in the block of the grid point whose number is the row divided by 5000. -/
theorem rows_covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region, whatever the region found in its arrays (`V`). -/
theorem final (c : Dev nD) : (dat1 V c).arrAt 2 cfg1.N = Cert.Spec.biasRelu (V c main_v43) (V c main_v44) :=
  (dat1 V c).arrAt_eq_of_cover 2 _ (fun t _ => tile_is_rows V c t) rows_covered

end Cert.KernelIdeal.Bias1

end
-- ==== Proof.Bias2.lean ====
/-
  The second layer's bias stage, as the array it leaves.

  The region walks the 100000 rows in 20 tiles of 5000. At tile t its body adds the bias row to each of the rows
  t·5000 … t·5000 + 4999 of the aggregated array and writes the result over the same rows of the output. The tiles
  cover every row, so the output ends as the whole array with the bias added to every row.
-/
import proofs.«112498_j39213051412908_1_alg».proof.Proof.Gen.KernelIdeal.Frame
import proofs.«112498_j39213051412908_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Bias2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's input array and its one-row bias, as the region finds them. -/
abbrev xin (c : Dev nD) : FVec Ideal S100000x128 .f32 := V c main_v59
abbrev brow (c : Dev nD) : FVec Ideal S1x128 .f32 := V c main_v60

/-- A tile's one store starts at its origin. -/
theorem origin : (![0, 0] : Fin 2 → Nat) = fun _ => 0 := funext fun a => by fin_cases a <;> rfl

/-- The body on a tile of rows and the one-row bias, at row `p` and column `q` of the tile: the entry plus the bias
    entry of its column. The two casts are to the shapes the values already have. -/
theorem tile_apply (x : Vec Ideal S5000x128 .f32) (b : Vec Ideal S1x128 .f32) (p : Fin 5000) (q : Fin 128) :
    k3_pay1 (F := Ideal) x b (ix2 p q) = x (ix2 p q) + b (ix2 (0 : Fin 1) q) := by
  unfold k3_pay1
  show shapeCast S5000x128 x shapeCasts_S5000x128_S5000x128 (ix2 p q)
      + broadcastTo S5000x128 (shapeCast S1x128 b shapeCasts_S1x128_S1x128) broadcasts_S1x128_S5000x128 (ix2 p q) = _
  rw [shapeCast_self, shapeCast_self, broadcastTo_1b_ab_apply]

/-- The printed index maps over the grid: tile `t` of the input and tile `t` of the output start at the same row block
    and at column 0; the bias row's one block is the whole row. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every one of the 20 row blocks is some grid point's output block. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What grid point `t` writes back is block `t` of the whole array with the bias row added to every row:
    row `p` of the tile is row t·5000 + p of the input. -/
theorem tile_is_rows (c : Dev nD) (t : Fin cfg3.N) :
    (dat3 V c).flushed 2 t
      = ((cfg3.win 2).blk t).view.read (Elt Ideal) (Cert.Spec.bias (V c main_v59) (V c main_v60)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
    = Cert.Spec.bias (V c main_v59) (V c main_v60) (((cfg3.win 2).blk t).view.emb (ix2 p q))
  rw [tile_apply]
  show xin V c (((cfg3.win 0).blk t).view.emb (ix2 p q)) + brow V c (((cfg3.win 1).blk t).view.emb (ix2 (0 : Fin 1) q))
    = xin V c (((cfg3.win 2).blk t).view.emb (ix2 p q))
        + brow V c (ix2 (0 : Fin 1) ((((cfg3.win 2).blk t).view.emb (ix2 p q)) 1))
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  exact congrArg₂ (fun a b => a + b) (congrArg (xin V c) h0) (congrArg (brow V c) h1)

/-- An index of the output array is in point `t`'s block iff each coordinate is in the block's range on its axis. -/
theorem mem_tile (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- Every row of the output lies in the block of the grid point whose number is the row divided by 5000. -/
theorem rows_covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_tile]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region, whatever the region found in its arrays (`V`). -/
theorem final (c : Dev nD) : (dat3 V c).arrAt 2 cfg3.N = Cert.Spec.bias (V c main_v59) (V c main_v60) :=
  (dat3 V c).arrAt_eq_of_cover 2 _ (fun t _ => tile_is_rows V c t) rows_covered

end Cert.KernelIdeal.Bias2

end
-- ==== Proof.RefValue.lean ====
/-
  The reference network, read as one composition over the extended reals.

  Both programs apply the same edge aggregation to a 100000 × 128 array `h`: gather the rows of `h` at the edges'
  sources (self loops appended), scale each gathered row by its edge's weight `dinv[src] · dinv[dst]`, and add it into
  the row of its destination. That step is carried here as one function `agg` of the edge list and of `h`, never opened:
  the two programs agree on what goes into it. Around it the reference computes a host matrix product, a bias added to
  every row, and (first layer) the maximum with zero; over the extended reals these are `mm`, `bias` and `biasRelu`.
-/
import proofs.«112498_j39213051412908_1_alg».proof.Proof.RefRead
import proofs.«112498_j39213051412908_1_alg».proof.Proof.Spec
import proofs.«112498_j39213051412908_1_alg».proof.Proof.LibDense

noncomputable section

namespace Cert.ReferenceIdeal.RefValue

open Cert.ReferenceIdeal Cert.ReferenceIdeal.Gen Cert.ReferenceIdeal.ReadCopy
open Idealize.ShloMosaic Idealize.ShloMosaic.TcCoe Idealize.ShloMosaic.ValueIdx

section Generic

variable {F : FTy → Type} [FloatOps F]

/-- The edge aggregation of one layer: rows of `h` gathered at the edges' sources, each scaled by its edge's weight, and
    added into the row of the edge's destination, starting from zeros. The index and weight arrays are the stages the
    reference computes from the edge list alone. -/
def agg (ei : (⟨S2x600000, .i32⟩ : BufTy).Contents (Elt F)) (h : (⟨S100000x128, .f32⟩ : BufTy).Contents (Elt F)) :
    (⟨S100000x128, .f32⟩ : BufTy).Contents (Elt F) :=
  Host.scatterAdd scatter_S100000x128_S700000x1_S700000x128_1_0_0_1 (val_main_v41 (F := F)) (val_main_v42 (F := F) ei)
    (mulf (val_main_v39 (F := F) ei)
      (Host.gather gather_S100000x128_S700000x1_S700000x128_1_0_n_n_0_1_1128 h (val_main_v37 (F := F) ei)))

/-- The first layer's aggregate is `agg` of the first product. -/
theorem layer1_agg (x0 : (⟨S100000x128, .f32⟩ : BufTy).Contents (Elt F)) (ei : (⟨S2x600000, .i32⟩ : BufTy).Contents (Elt F))
    (x2 : (⟨S128x128, .f32⟩ : BufTy).Contents (Elt F)) :
    val_main_v43 (F := F) x0 ei x2 = agg ei (val_main_v30 (F := F) x0 x2) := rfl

/-- The second layer recomputes the same index and weight arrays from the edge list, so its aggregate is the same
    `agg`, of the second product. -/
theorem layer2_agg (x0 : (⟨S100000x128, .f32⟩ : BufTy).Contents (Elt F)) (ei : (⟨S2x600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v61 (F := F) x0 ei x2 x3 x4 = agg ei (val_main_v48 (F := F) x0 ei x2 x3 x4) := rfl

end Generic

/-- The host product's dimension numbers are the rows-by-columns ones. -/
theorem dot_plain : dot_S100000x128_S128x128_S100000x128_1_0_0_1_n_n = DotDims.plain 100000 128 128 := rfl

/-- The host's matrix product over the extended reals: entry (r, j) is the sum over k of x (r, k) · w (k, j). -/
theorem dot_eq_mm (x : FVec Ideal S100000x128 .f32) (w : FVec Ideal S128x128 .f32) :
    Host.dotGeneral dot_S100000x128_S128x128_S100000x128_1_0_0_1_n_n none x w = Cert.Spec.mm x w := by
  funext i
  obtain ⟨r, j, rfl⟩ : ∃ (r : Fin 100000) (j : Fin 128), i = ix2 r j := ⟨i 0, i 1, eq_ix2 i⟩
  have h := Cert.LibDense.dotGeneral_plain_apply (M := 100000) (K := 128) (N := 128) none .single x w r j
  rw [← dot_plain] at h
  exact h

/-- The first layer's bias, broadcast along a one-row matrix and down the rows, is the bias row at the entry's column. -/
theorem bias1_apply (b : FVec Ideal S128 .f32) (i : S100000x128.Idx) :
    val_main_v45 (F := Ideal) b i = Cert.Spec.rowOf b (ix2 (0 : Fin 1) (i 1)) := by
  rw [val_main_v45_apply, val_main_v44_apply]
  exact congrArg b (funext fun a => match a with | ⟨0, _⟩ => rfl)

/-- The same for the second layer's bias. -/
theorem bias2_apply (b : FVec Ideal S128 .f32) (i : S100000x128.Idx) :
    val_main_v63 (F := Ideal) b i = Cert.Spec.rowOf b (ix2 (0 : Fin 1) (i 1)) := by
  rw [val_main_v63_apply, val_main_v62_apply]
  exact congrArg b (funext fun a => match a with | ⟨0, _⟩ => rfl)

/-- The reference's zero array of the ReLU reads zero everywhere. -/
theorem zero_apply (i : S100000x128.Idx) : val_main_call1_v0 (F := Ideal) i = 0 := by
  rw [val_main_call1_v0_apply, val_main_call1_cst_apply]
  exact Ideal.ofBits_zero_f32

/-- The whole network as the reference computes it, over the extended reals: product, aggregate, bias and the maximum
    with zero; then product, aggregate and bias again. -/
def net (x : FVec Ideal S100000x128 .f32) (ei : (⟨S2x600000, .i32⟩ : BufTy).Contents (Elt Ideal))
    (w1 : FVec Ideal S128x128 .f32) (b1 : FVec Ideal S128 .f32) (w2 : FVec Ideal S128x128 .f32) (b2 : FVec Ideal S128 .f32) :
    FVec Ideal S100000x128 .f32 :=
  Cert.Spec.bias (agg ei (Cert.Spec.mm (Cert.Spec.biasRelu (agg ei (Cert.Spec.mm x w1)) (Cert.Spec.rowOf b1)) w2))
    (Cert.Spec.rowOf b2)

/-- The hidden features: the first layer's product, aggregate, bias and maximum with zero. -/
theorem hidden_eq (x : FVec Ideal S100000x128 .f32) (ei : (⟨S2x600000, .i32⟩ : BufTy).Contents (Elt Ideal))
    (w1 : FVec Ideal S128x128 .f32) (b1 : FVec Ideal S128 .f32) :
    val_main_v47 (F := Ideal) x ei w1 b1 = Cert.Spec.biasRelu (agg ei (Cert.Spec.mm x w1)) (Cert.Spec.rowOf b1) := by
  funext i
  rw [val_main_v47_apply, val_main_v46_apply, bias1_apply, zero_apply, layer1_agg]
  unfold val_main_v30
  rw [dot_eq_mm]
  rfl

/-- The reference's result is `net` of its arguments. -/
theorem result_eq (x : FVec Ideal S100000x128 .f32) (ei : (⟨S2x600000, .i32⟩ : BufTy).Contents (Elt Ideal))
    (w1 : FVec Ideal S128x128 .f32) (b1 : FVec Ideal S128 .f32) (w2 : FVec Ideal S128x128 .f32) (b2 : FVec Ideal S128 .f32) :
    val_main_v64 (F := Ideal) x ei w1 b1 w2 b2 = net x ei w1 b1 w2 b2 := by
  funext i
  rw [val_main_v64_apply, bias2_apply, layer2_agg]
  unfold val_main_v48
  rw [dot_eq_mm, hidden_eq]
  rfl

end Cert.ReferenceIdeal.RefValue

end
-- ==== Proof.KValue.lean ====
/-
  The kernel's result array, traced back through its run to the launched arguments.

  The run alternates stretches of host operations with the four regions. At every boundary the contents of the
  buffers that matter are named: the edge arrays (sources, destinations and the weight of each edge, functions of the
  edge list alone, which no region and no later host operation writes), the arguments not yet consumed, and the array
  the next stage reads. A host stretch is read off its operations; a region's output is the whole-array function its
  tiles compute. Composed, the result is the network `net` of the arguments: product, aggregate, bias and the maximum
  with zero; then product, aggregate and bias again.
-/
import proofs.«112498_j39213051412908_1_alg».proof.Proof.KRun
import proofs.«112498_j39213051412908_1_alg».proof.Proof.Dense1
import proofs.«112498_j39213051412908_1_alg».proof.Proof.Dense2
import proofs.«112498_j39213051412908_1_alg».proof.Proof.Bias1
import proofs.«112498_j39213051412908_1_alg».proof.Proof.Bias2
import proofs.«112498_j39213051412908_1_alg».proof.Proof.RefValue
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-! # The host side, for any float values -/

section Generic

variable {F : FTy → Type} [FloatOps F]
variable (m : (ℓ : Loc nD τ sig) → Buf (Elt F) ℓ) (ρ : Dev nD → PrngReg)

/-- The edge list as launched. -/
abbrev ei (c : Dev nD) : (⟨Cert.ReferenceIdeal.S2x600000, .i32⟩ : BufTy).Contents (Elt F) := m ((c.tc : Thread nD τ).loc main_arg1)

/-! ## Before the first region: the edge arrays -/

/-- After the first stretch: the sources with the self loops appended. -/
theorem src1 (c : Dev nD) : W1 m ρ c (Proc.devRef .tc main_v3) = Cert.ReferenceIdeal.ReadCopy.val_main_v3 (F := F) (ei m c) := by
  show StableHlo.after hostOps0 (W0 m ρ c) (Proc.devRef .tc main_v3) = _
  dsimp only [hostOps0]
  after_results
  rfl

/-- The destinations with the self loops appended. -/
theorem dst1 (c : Dev nD) : W1 m ρ c (Proc.devRef .tc main_v6) = Cert.ReferenceIdeal.ReadCopy.val_main_v6 (F := F) (ei m c) := by
  show StableHlo.after hostOps0 (W0 m ρ c) (Proc.devRef .tc main_v6) = _
  dsimp only [hostOps0]
  after_results
  rfl

/-- Where the degree is positive. -/
theorem pos1 (c : Dev nD) : W1 m ρ c (Proc.devRef .tc main_v12) = Cert.ReferenceIdeal.ReadCopy.val_main_v12 (F := F) (ei m c) := by
  show StableHlo.after hostOps0 (W0 m ρ c) (Proc.devRef .tc main_v12) = _
  dsimp only [hostOps0]
  after_results
  rfl

/-- The degree's reciprocal square root. -/
theorem rs1 (c : Dev nD) : W1 m ρ c (Proc.devRef .tc main_v13) = Cert.ReferenceIdeal.ReadCopy.val_main_v13 (F := F) (ei m c) := by
  show StableHlo.after hostOps0 (W0 m ρ c) (Proc.devRef .tc main_v13) = _
  dsimp only [hostOps0]
  after_results
  rfl

/-- The zero the selection falls back to. -/
theorem zero1 (c : Dev nD) : W1 m ρ c (Proc.devRef .tc main_cst_2) = Cert.ReferenceIdeal.ReadCopy.val_main_cst_2 (F := F) := by
  show StableHlo.after hostOps0 (W0 m ρ c) (Proc.devRef .tc main_cst_2) = _
  dsimp only [hostOps0]
  after_results
  rfl

/-- After the selection: the inverse square-root degree, zero where the degree is not positive. -/
theorem inv2 (c : Dev nD) : W2 m ρ c (Proc.devRef .tc main_v14) = Cert.ReferenceIdeal.ReadCopy.val_main_v14 (F := F) (ei m c) := by
  have h12 := pos1 m ρ c; have h13 := rs1 m ρ c; have hz := zero1 m ρ c
  show StableHlo.after hostOps0_1 (W1 m ρ c) (Proc.devRef .tc main_v14) = _
  generalize W1 m ρ c = X at h12 h13 hz ⊢
  dsimp only [hostOps0_1]
  after_results
  rw [h12, h13, hz]
  unfold Cert.ReferenceIdeal.ReadCopy.val_main_v14 Cert.ReferenceIdeal.ReadCopy.val_main_call0_v1 Cert.ReferenceIdeal.ReadCopy.val_main_call0_v0
  (try simp only [TRef.ofBuf, TRef.toBuf, cast_eq])
  try rfl

theorem src2 (c : Dev nD) : W2 m ρ c (Proc.devRef .tc main_v3) = Cert.ReferenceIdeal.ReadCopy.val_main_v3 (F := F) (ei m c) := by
  have h := src1 m ρ c
  show StableHlo.after hostOps0_1 (W1 m ρ c) (Proc.devRef .tc main_v3) = _
  generalize W1 m ρ c = X at h ⊢
  dsimp only [hostOps0_1]
  after_results
  exact h

theorem dst2 (c : Dev nD) : W2 m ρ c (Proc.devRef .tc main_v6) = Cert.ReferenceIdeal.ReadCopy.val_main_v6 (F := F) (ei m c) := by
  have h := dst1 m ρ c
  show StableHlo.after hostOps0_1 (W1 m ρ c) (Proc.devRef .tc main_v6) = _
  generalize W1 m ρ c = X at h ⊢
  dsimp only [hostOps0_1]
  after_results
  exact h

set_option maxHeartbeats 4000000 in
/-- At the first region's entry: every edge's weight, the product of the two ends' inverse square-root degrees. -/
theorem norm3 (c : Dev nD) : W3 m ρ c (Proc.devRef .tc main_v29) = Cert.ReferenceIdeal.ReadCopy.val_main_v29 (F := F) (ei m c) := by
  have h14 := inv2 m ρ c; have h3 := src2 m ρ c; have h6 := dst2 m ρ c
  show StableHlo.after hostOps0_2 (W2 m ρ c) (Proc.devRef .tc main_v29) = _
  generalize W2 m ρ c = X at h14 h3 h6 ⊢
  dsimp only [hostOps0_2]
  after_results
  rw [h14, h3, h6]
  rfl

theorem src3 (c : Dev nD) : W3 m ρ c (Proc.devRef .tc main_v3) = Cert.ReferenceIdeal.ReadCopy.val_main_v3 (F := F) (ei m c) := by
  have h := src2 m ρ c
  show StableHlo.after hostOps0_2 (W2 m ρ c) (Proc.devRef .tc main_v3) = _
  generalize W2 m ρ c = X at h ⊢
  dsimp only [hostOps0_2]
  after_results
  exact h

theorem dst3 (c : Dev nD) : W3 m ρ c (Proc.devRef .tc main_v6) = Cert.ReferenceIdeal.ReadCopy.val_main_v6 (F := F) (ei m c) := by
  have h := dst2 m ρ c
  show StableHlo.after hostOps0_2 (W2 m ρ c) (Proc.devRef .tc main_v6) = _
  generalize W2 m ρ c = X at h ⊢
  dsimp only [hostOps0_2]
  after_results
  exact h

/-- No host operation before the first region writes an argument. -/
theorem arg_3 (c : Dev nD) (b : Ref sig .tc) (hb : b = main_arg0 ∨ b = main_arg2 ∨ b = main_arg3 ∨ b = main_arg4 ∨ b = main_arg5) :
    W3 m ρ c (Proc.devRef .tc b) = m ((c.tc : Thread nD τ).loc b) := by
  show StableHlo.after hostOps0_2 (StableHlo.after hostOps0_1 (StableHlo.after hostOps0 (W0 m ρ c))) (Proc.devRef .tc b) = _
  dsimp only [hostOps0, hostOps0_1, hostOps0_2]
  rcases hb with rfl | rfl | rfl | rfl | rfl <;> (after_results_simp <;> rfl)

/-! ## What is carried from one boundary to the next -/

/-- The buffers later stages still read, at contents `X`: the edge arrays and the arguments not yet consumed. -/
structure Carried (X : Valuation τ sig (Elt F)) (c : Dev nD) : Prop where
  norm : X (Proc.devRef .tc main_v29) = Cert.ReferenceIdeal.ReadCopy.val_main_v29 (F := F) (ei m c)
  src : X (Proc.devRef .tc main_v3) = Cert.ReferenceIdeal.ReadCopy.val_main_v3 (F := F) (ei m c)
  dst : X (Proc.devRef .tc main_v6) = Cert.ReferenceIdeal.ReadCopy.val_main_v6 (F := F) (ei m c)
  a3 : X (Proc.devRef .tc main_arg3) = m ((c.tc : Thread nD τ).loc main_arg3)
  a4 : X (Proc.devRef .tc main_arg4) = m ((c.tc : Thread nD τ).loc main_arg4)
  a5 : X (Proc.devRef .tc main_arg5) = m ((c.tc : Thread nD τ).loc main_arg5)

theorem carried3 (c : Dev nD) : Carried m (W3 m ρ c) c :=
  ⟨norm3 m ρ c, src3 m ρ c, dst3 m ρ c, arg_3 m ρ c _ (.inr (.inr (.inl rfl))), arg_3 m ρ c _ (.inr (.inr (.inr (.inl rfl)))),
    arg_3 m ρ c _ (.inr (.inr (.inr (.inr rfl))))⟩

/-- The first region writes none of them. -/
theorem carried4 (c : Dev nD) : Carried m (W4 m ρ c) c :=
  have h := carried3 m ρ c
  ⟨(W4_of_ne m ρ c main_v29 (by decide)).trans h.norm, (W4_of_ne m ρ c main_v3 (by decide)).trans h.src,
    (W4_of_ne m ρ c main_v6 (by decide)).trans h.dst, (W4_of_ne m ρ c main_arg3 (by decide)).trans h.a3,
    (W4_of_ne m ρ c main_arg4 (by decide)).trans h.a4, (W4_of_ne m ρ c main_arg5 (by decide)).trans h.a5⟩

/-- Nor does the first layer's aggregation stretch. -/
theorem carried_hostOps1 (X : Valuation τ sig (Elt F)) (c : Dev nD) (h : Carried m X c) :
    Carried m (StableHlo.after hostOps1 X) c := by
  obtain ⟨h1, h2, h3, h4, h5, h6⟩ := h
  refine ⟨?_, ?_, ?_, ?_, ?_, ?_⟩ <;> dsimp only [hostOps1] <;> after_results <;> assumption

/-- Nor does the second layer's. -/
theorem carried_hostOps3 (X : Valuation τ sig (Elt F)) (c : Dev nD) (h : Carried m X c) :
    Carried m (StableHlo.after hostOps3 X) c := by
  obtain ⟨h1, h2, h3, h4, h5, h6⟩ := h
  refine ⟨?_, ?_, ?_, ?_, ?_, ?_⟩ <;> dsimp only [hostOps3] <;> after_results <;> assumption

theorem carried5 (c : Dev nD) : Carried m (W5 m ρ c) c := carried_hostOps1 m (W4 m ρ c) c (carried4 m ρ c)

theorem carried6 (c : Dev nD) : Carried m (W6 m ρ c) c :=
  have h := carried5 m ρ c
  ⟨(W6_of_ne m ρ c main_v29 (by decide)).trans h.norm, (W6_of_ne m ρ c main_v3 (by decide)).trans h.src,
    (W6_of_ne m ρ c main_v6 (by decide)).trans h.dst, (W6_of_ne m ρ c main_arg3 (by decide)).trans h.a3,
    (W6_of_ne m ρ c main_arg4 (by decide)).trans h.a4, (W6_of_ne m ρ c main_arg5 (by decide)).trans h.a5⟩

theorem carried7 (c : Dev nD) : Carried m (W7 m ρ c) c :=
  have h := carried6 m ρ c
  ⟨(W7_of_ne m ρ c main_v29 (by decide)).trans h.norm, (W7_of_ne m ρ c main_v3 (by decide)).trans h.src,
    (W7_of_ne m ρ c main_v6 (by decide)).trans h.dst, (W7_of_ne m ρ c main_arg3 (by decide)).trans h.a3,
    ((W7_arr m ρ c 1).trans (((dat2 (V6 m ρ) c).arrAt_in 1 rfl _).trans (A_eq2 (V6 m ρ) c 1))).trans h.a4, (W7_of_ne m ρ c main_arg5 (by decide)).trans h.a5⟩

/-! ## The stages -/

set_option maxHeartbeats 4000000 in
/-- One layer's aggregation stretch, from any contents carrying the edge arrays: the aggregate buffer ends at `agg` of
    the product buffer's contents. The stretch's own index and weight arrays are the reference's stages of the same
    names' values, so the term is `agg`'s by unfolding. -/
theorem agg_hostOps1 (X : Valuation τ sig (Elt F)) (c : Dev nD) (h : Carried m X c) (y : (⟨Cert.ReferenceIdeal.S100000x128, .f32⟩ : BufTy).Contents (Elt F))
    (hy : X (Proc.devRef .tc main_v30) = y) :
    StableHlo.after hostOps1 X (Proc.devRef .tc main_v43) = Cert.ReferenceIdeal.RefValue.agg (F := F) (ei m c) y := by
  obtain ⟨h29, h3, h6, -, -, -⟩ := h
  dsimp only [hostOps1]
  after_results
  rw [h29, h3, h6, hy]
  rfl

set_option maxHeartbeats 4000000 in
theorem agg_hostOps3 (X : Valuation τ sig (Elt F)) (c : Dev nD) (h : Carried m X c) (y : (⟨Cert.ReferenceIdeal.S100000x128, .f32⟩ : BufTy).Contents (Elt F))
    (hy : X (Proc.devRef .tc main_v46) = y) :
    StableHlo.after hostOps3 X (Proc.devRef .tc main_v59) = Cert.ReferenceIdeal.RefValue.agg (F := F) (ei m c) y := by
  obtain ⟨h29, h3, h6, -, -, -⟩ := h
  dsimp only [hostOps3]
  after_results
  rw [h29, h3, h6, hy]
  rfl

end Generic

/-! # Over the extended reals -/

variable (m : (ℓ : Loc nD τ sig) → Buf (Elt Ideal) ℓ) (ρ : Dev nD → PrngReg)

/-- The arguments as launched: the node features and the two layers' weights and biases. -/
abbrev x0 (c : Dev nD) : FVec Ideal Cert.ReferenceIdeal.S100000x128 .f32 := m ((c.tc : Thread nD τ).loc main_arg0)
abbrev w1 (c : Dev nD) : FVec Ideal Cert.ReferenceIdeal.S128x128 .f32 := m ((c.tc : Thread nD τ).loc main_arg2)
abbrev b1 (c : Dev nD) : FVec Ideal Cert.ReferenceIdeal.S128 .f32 := m ((c.tc : Thread nD τ).loc main_arg3)
abbrev w2 (c : Dev nD) : FVec Ideal Cert.ReferenceIdeal.S128x128 .f32 := m ((c.tc : Thread nD τ).loc main_arg4)
abbrev b2 (c : Dev nD) : FVec Ideal Cert.ReferenceIdeal.S128 .f32 := m ((c.tc : Thread nD τ).loc main_arg5)

/-- A 128-vector reshaped to one row is the vector laid along the row. -/
theorem reshape_row (b : FVec Ideal S128 .f32) (h : S128.ShapeCasts S1x128) : shapeCast S1x128 b h = Cert.Spec.rowOf b := by
  funext i
  refine (shapeCast_addUnit_apply (![128]) b h i).trans ?_
  exact congrArg b (funext fun a => match a with | ⟨0, _⟩ => rfl)

/-- The first region: the features times the first layer's weights. -/
theorem prod1 (c : Dev nD) : W4 m ρ c (Proc.devRef .tc main_v30) = Cert.Spec.mm (x0 m c) (w1 m c) := by
  refine (W4_arr m ρ c 2).trans ((Cert.KernelIdeal.Dense1.final (V3 m ρ) c).trans ?_)
  show Cert.Spec.mm (W3 m ρ c (Proc.devRef .tc main_arg0)) (W3 m ρ c (Proc.devRef .tc main_arg2)) = _
  rw [arg_3 m ρ c main_arg0 (.inl rfl), arg_3 m ρ c main_arg2 (.inr (.inl rfl))]

/-- The first aggregate. -/
theorem agg1 (c : Dev nD) : W5 m ρ c (Proc.devRef .tc main_v43) = Cert.ReferenceIdeal.RefValue.agg (F := Ideal) (ei m c) (Cert.Spec.mm (x0 m c) (w1 m c)) :=
  agg_hostOps1 m (W4 m ρ c) c (carried4 m ρ c) _ (prod1 m ρ c)

/-- The first bias as one row. -/
theorem row1 (c : Dev nD) : W5 m ρ c (Proc.devRef .tc main_v44) = Cert.Spec.rowOf (b1 m c) := by
  have h := (carried4 m ρ c).a3
  show StableHlo.after hostOps1 (W4 m ρ c) (Proc.devRef .tc main_v44) = _
  generalize W4 m ρ c = X at h ⊢
  dsimp only [hostOps1]
  after_results
  rw [h]
  exact reshape_row _ _

/-- The second region: the hidden features. -/
theorem hidden (c : Dev nD) : W6 m ρ c (Proc.devRef .tc main_v45)
    = Cert.Spec.biasRelu (Cert.ReferenceIdeal.RefValue.agg (F := Ideal) (ei m c) (Cert.Spec.mm (x0 m c) (w1 m c))) (Cert.Spec.rowOf (b1 m c)) := by
  refine (W6_arr m ρ c 2).trans ((Cert.KernelIdeal.Bias1.final (V5 m ρ) c).trans ?_)
  show Cert.Spec.biasRelu (W5 m ρ c (Proc.devRef .tc main_v43)) (W5 m ρ c (Proc.devRef .tc main_v44)) = _
  rw [agg1, row1]

/-- The third region: the hidden features times the second layer's weights. -/
theorem prod2 (c : Dev nD) : W7 m ρ c (Proc.devRef .tc main_v46)
    = Cert.Spec.mm (Cert.Spec.biasRelu (Cert.ReferenceIdeal.RefValue.agg (F := Ideal) (ei m c) (Cert.Spec.mm (x0 m c) (w1 m c))) (Cert.Spec.rowOf (b1 m c))) (w2 m c) := by
  refine (W7_arr m ρ c 2).trans ((Cert.KernelIdeal.Dense2.final (V6 m ρ) c).trans ?_)
  show Cert.Spec.mm (W6 m ρ c (Proc.devRef .tc main_v45)) (W6 m ρ c (Proc.devRef .tc main_arg4)) = _
  rw [hidden, (carried6 m ρ c).a4]

/-- The second aggregate. -/
theorem agg2 (c : Dev nD) : W8 m ρ c (Proc.devRef .tc main_v59) = Cert.ReferenceIdeal.RefValue.agg (F := Ideal) (ei m c)
    (Cert.Spec.mm (Cert.Spec.biasRelu (Cert.ReferenceIdeal.RefValue.agg (F := Ideal) (ei m c) (Cert.Spec.mm (x0 m c) (w1 m c))) (Cert.Spec.rowOf (b1 m c))) (w2 m c)) :=
  agg_hostOps3 m (W7 m ρ c) c (carried7 m ρ c) _ (prod2 m ρ c)

/-- The second bias as one row. -/
theorem row2 (c : Dev nD) : W8 m ρ c (Proc.devRef .tc main_v60) = Cert.Spec.rowOf (b2 m c) := by
  have h := (carried7 m ρ c).a5
  show StableHlo.after hostOps3 (W7 m ρ c) (Proc.devRef .tc main_v60) = _
  generalize W7 m ρ c = X at h ⊢
  dsimp only [hostOps3]
  after_results
  rw [h]
  exact reshape_row _ _

/-- The result array after the run is the network of the launched arguments. -/
theorem result_eq (c : Dev nD) : W9 m ρ c (Proc.devRef .tc main_v61) = Cert.ReferenceIdeal.RefValue.net (x0 m c) (ei m c) (w1 m c) (b1 m c) (w2 m c) (b2 m c) := by
  refine (W9_arr m ρ c 2).trans ((Cert.KernelIdeal.Bias2.final (V8 m ρ) c).trans ?_)
  show Cert.Spec.bias (W8 m ρ c (Proc.devRef .tc main_v59)) (W8 m ρ c (Proc.devRef .tc main_v60)) = _
  rw [agg2, row2]
  rfl

end Cert.KernelIdeal.KValue

end
-- ==== Proof.lean ====
/-
  A two-layer graph convolution: the kernel's four tiled regions against the plain reference.

  Both programs build the same edge arrays from the edge list (sources and destinations with a self loop appended for
  every node, and each edge's weight dinv[src] · dinv[dst] with dinv the inverse square root of the in-degree), and in each
  layer both gather the rows of a dense transform of the features at the sources, scale them by the weights and add them
  into the destinations' rows, then add the layer's bias (and, in the first layer, take the maximum with zero). They
  differ only in how the dense transform and the bias stage are computed: the kernel tiles the 100000 rows by 5000 and
  runs a matrix product of bf16-rounded operands, resp. a bias add, on each tile; the reference does one matrix product
  and one broadcast add over the whole array. Over the extended reals rounding is the identity, a tile's rows of the
  product are rows of the whole product, and the tiles cover every row: so each region leaves the array the
  reference's operation computes, the shared aggregation is applied to equal arrays, and the two results are one function
  `net` of the arguments. No operation of the kernel is replaced in its reading over the extended reals, so there is nothing to preserve.
-/
import proofs.«112498_j39213051412908_1_alg».proof.Defs
import proofs.«112498_j39213051412908_1_alg».proof.Proof.Gen.Kernel
import proofs.«112498_j39213051412908_1_alg».proof.Proof.Gen.Kernel.Skeleton
import proofs.«112498_j39213051412908_1_alg».proof.Proof.Gen.Kernel.Launch
import proofs.«112498_j39213051412908_1_alg».proof.Proof.Gen.Kernel.Points
import proofs.«112498_j39213051412908_1_alg».proof.Proof.Gen.Kernel.Frame
import proofs.«112498_j39213051412908_1_alg».proof.Proof.Gen.KernelIdeal
import proofs.«112498_j39213051412908_1_alg».proof.Proof.Gen.KernelIdeal.Skeleton
import proofs.«112498_j39213051412908_1_alg».proof.Proof.Gen.KernelIdeal.Launch
import proofs.«112498_j39213051412908_1_alg».proof.Proof.Gen.KernelIdeal.Points
import proofs.«112498_j39213051412908_1_alg».proof.Proof.Gen.KernelIdeal.Frame
import proofs.«112498_j39213051412908_1_alg».proof.Proof.Gen.ReferenceIdeal
import proofs.«112498_j39213051412908_1_alg».proof.Proof.Gen.Pre_finite_inputs
import proofs.«112498_j39213051412908_1_alg».proof.Proof.KRun
import proofs.«112498_j39213051412908_1_alg».proof.Proof.KValue
import proofs.«112498_j39213051412908_1_alg».proof.Proof.RefRun
import proofs.«112498_j39213051412908_1_alg».proof.Proof.RefRead
import proofs.«112498_j39213051412908_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunCopy.run (F := Ideal) m ρ)

/-- Over the extended reals the kernel's result array ends at `net` of its arguments (the run traced back region by
    region) and the reference's at `net` of its own (its operations read one at a time); the arguments agree. -/
theorem algebraic : Cert.algebraic_KernelIdeal_ReferenceIdeal := by
  intro m ρ m' ρ' _ hagree
  refine ⟨fun c => Cert.ReferenceIdeal.RefValue.net (Cert.KernelIdeal.KValue.x0 m c) (Cert.KernelIdeal.KValue.ei m c)
      (Cert.KernelIdeal.KValue.w1 m c) (Cert.KernelIdeal.KValue.b1 m c) (Cert.KernelIdeal.KValue.w2 m c)
      (Cert.KernelIdeal.KValue.b2 m c), ?_, ?_⟩
  · exact (θ_run Cert.KernelIdeal.defs _ _).mono
      (fun r h c => ⟨(h c).1.trans (Cert.KernelIdeal.KValue.result_eq m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RunCopy.run (F := Ideal) m' ρ')
    rw [Cert.ReferenceIdeal.ReadCopy.val_main_v64_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
